-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x256 .f32) (main_arg1 : FVec F S256x256 .f32) (main_arg2 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x256 : Shape := ⟨2, ![50000, 256]⟩
abbrev S256x256 : Shape := ⟨2, ![256, 256]⟩
abbrev S256 : Shape := ⟨1, ![256]⟩
abbrev S1x256 : Shape := ⟨2, ![1, 256]⟩
abbrev S15000x256 : Shape := ⟨2, ![15000, 256]⟩

abbrev nBuf : Space → Nat
  | .hbm => 5
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S1x256, .f32⟩
  | .hbm, ⟨4, _⟩ => ⟨S50000x256, .f32⟩
  | .local _ .vmem, ⟨0, _⟩ => ⟨S15000x256, .f32⟩
  | .local _ .vmem, ⟨1, _⟩ => ⟨S15000x256, .f32⟩
  | .local _ .vmem, ⟨2, _⟩ => ⟨S256x256, .f32⟩
  | .local _ .vmem, ⟨3, _⟩ => ⟨S1x256, .f32⟩
  | .local _ .vmem, ⟨4, _⟩ => ⟨S15000x256, .f32⟩
  | .local _ .vmem, ⟨5, _⟩ => ⟨S15000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S15000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S15000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256_S1x256 : S256.ShapeCasts S1x256
  inb_S15000x256_S15000x256_0_0 : ∀ a, (![0, 0] : Fin 2 → Nat) a + S15000x256.size a ≤ S15000x256.size a
  h_S15000x256 : 0 < S15000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S15000x256 : S1x256.Broadcasts S15000x256
  dot_S15000x256_S256x256_S15000x256_1_0_0_1_n_n_wf : DotDims.WF S15000x256 S256x256 S15000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S15000x256.size a < S50000x256.size a
  hwx0_0 : ∀ i : grid0.Coords, EltTy.bits .f32 = 32 ∨ (Rect.unit (s := S50000x256) (fun a => cc0_transform_0 i a * S15000x256.size a) (fun a => (Pipeline.Clip.of (cc0_transform_0 i a) (S15000x256.size a) (S50000x256.size a)).extent (S15000x256.size a)) fun a => Pipeline.Clip.inb (Pipeline.Clip.ok_of (hstart0_0 i a))).WholeWords (EltTy.packing .f32)
  hwxs0_0 : ∀ i : grid0.Coords, EltTy.bits .f32 = 32 ∨ (Rect.unit (s := S15000x256) (fun _ => 0) (fun a => (Pipeline.Clip.of (cc0_transform_0 i a) (S15000x256.size a) (S50000x256.size a)).extent (S15000x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S15000x256.size a < S50000x256.size a
  hwx0_3 : ∀ i : grid0.Coords, EltTy.bits .f32 = 32 ∨ (Rect.unit (s := S50000x256) (fun a => cc0_transform_3 i a * S15000x256.size a) (fun a => (Pipeline.Clip.of (cc0_transform_3 i a) (S15000x256.size a) (S50000x256.size a)).extent (S15000x256.size a)) fun a => Pipeline.Clip.inb (Pipeline.Clip.ok_of (hstart0_3 i a))).WholeWords (EltTy.packing .f32)
  hwxs0_3 : ∀ i : grid0.Coords, EltTy.bits .f32 = 32 ∨ (Rect.unit (s := S15000x256) (fun _ => 0) (fun a => (Pipeline.Clip.of (cc0_transform_3 i a) (S15000x256.size a) (S50000x256.size a)).extent (S15000x256.size a)) fun a => (Nat.zero_add _).trans_le (Pipeline.Clip.extent_le (Pipeline.Clip.ok_of (hstart0_3 i a)))).WholeWords (EltTy.packing .f32)

variable [Facts₀]

def dot_S15000x256_S256x256_S15000x256_1_0_0_1_n_n : DotDims S15000x256 S256x256 S15000x256 where
  lhsContracting := [1]
  rhsContracting := [0]
  lhsNonContracting := [0]
  rhsNonContracting := [1]
  lhsBatch := []
  rhsBatch := []
  wf := dot_S15000x256_S256x256_S15000x256_1_0_0_1_n_n_wf

abbrev win0_0 : Pipeline.Window sig grid0 :=
  Pipeline.Window.ofSpecClip (Memref.whole main_arg0) S15000x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S15000x256.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S1x256 : Shape := ⟨2, ![1, 256]⟩

abbrev nBuf : Space → Nat
  | .hbm => 7
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S50000x256, .f32⟩
  | .hbm, ⟨4, _⟩ => ⟨S1x256, .f32⟩
  | .hbm, ⟨5, _⟩ => ⟨S50000x256, .f32⟩
  | .hbm, ⟨6, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelBody.lean ====
/-
  The frame of the tiled affine map  y = x · W + b  (x : 50000 × 256, W : 256 × 256, b : 256), rows taken 15000 at a
  time over four grid points, at any float instance.

  The last block (rows 45000 to 59999) overhangs the array by 10000 rows: its fetch fills the staging buffer's first
  5000 rows with the array's rows 45000 to 49999 and leaves the other 10000 rows at words nothing names; the
  write-back moves only the first 5000 rows. The body loads the x block, W and b whole, stores  block · W + b  whole
  into the output's staging buffer, and reads nothing back.

  Here: the body's triple (each input buffer left as found, the output buffer at the one store's payload), the proof
  data (after the body an input buffer holds its block, x's filled out past the array's end, and the output buffer the
  payload of those), what each buffer holds when the body starts, and the frame: the run terminates, faults nowhere and
  leaves x, W and b as they were. For the frame nothing is said of what the output's buffer holds: at a bit-exact
  instance the matrix product is not a row-by-row function, so the rows computed from the unnamed tail cannot be
  separated from the others there, and the frame does not need them.
-/
import proofs.«144049_g41059887350157_cont_8to1_b_1536_13_alg».proof.Proof.Gen.Kernel.Frame
import proofs.«144049_g41059887350157_cont_8to1_b_1536_13_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each the whole buffer -/

abbrev rX : Rect S15000x256 := Rect.unit (s := S15000x256) ![0, 0] S15000x256.size inb_S15000x256_S15000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- What the one store leaves in the output's buffer, from what the three input buffers hold. -/
def out3 (x0 : Vec F S15000x256 .f32) (x1 : Vec F S256x256 .f32) (x3 : Vec F S1x256 .f32) : Vec F S15000x256 .f32 :=
  View.canon [⟨rX, k0_pay1 (View.ld x0 rX) (View.ld x1 rW) (View.ld x3 rB)⟩]

/-- The store's rectangle is the whole buffer. -/
theorem cover3 (p0 : Vec F S15000x256 .f32) (y : S15000x256.Idx) :
    ∃ pc ∈ ([⟨rX, p0⟩] : List (View.Piece (Elt F) S15000x256 .f32)), y ∈ pc.1.set :=
  View.cover_of_tiled [⟨rX, p0⟩] S15000x256.size (by rfl) y

/-- Every access starts at the origin and spans the buffer, so the stored value is the payload of the buffers' whole
    contents:  x0 · x1 + x3  row by row. -/
theorem out3_eq (x0 : Vec F S15000x256 .f32) (x1 : Vec F S256x256 .f32) (x3 : Vec F S1x256 .f32) :
    out3 x0 x1 x3 = k0_pay1 x0 x1 x3 := by
  have hz : (![0, 0] : Fin 2 → Nat) = fun _ => 0 := funext fun a => by fin_cases a <;> rfl
  unfold out3
  rw [View.canon_unit_zero hz]
  simp only [View.ld_unit_zero (S := S15000x256) hz, View.ld_unit_zero (S := S256x256) hz, View.ld_unit_zero (S := S1x256) hz]

/-! ## The body's triple -/

set_option maxHeartbeats 1000000 in
/-- On whole staging buffers holding  x0, x1, x3  and anything in the output's: three loads, a load of the output's
    buffer that nothing reads, one store. The inputs' buffers are left as found and the output's holds the store. -/
theorem sound_kernel (c : Dev nD) (E : Set ℕ) (i : grid0.Coords)
    (arg1 : Memref sig .tc .vmem S15000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S15000x256 .f32) (harg4 : arg4.IsWhole)
    (x0 : Vec F S15000x256 .f32) (x1 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x3
        ∗ (∃ d, owns (c : Thread nD τ) arg4 fullShare d)
        ∗ (iprop(owns (c : Thread nD τ) arg1 fullShare x0 ∗ owns (c : Thread nD τ) arg2 fullShare x1 ∗ owns (c : Thread nD τ) arg3 fullShare x3
            ∗ owns (c : Thread nD τ) arg4 fullShare (out3 x0 x1 x3)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%f3, %hf3, H3⟩, ⟨%d4, %f4, -, H4⟩, Hk⟩
  subst hf0 hf1 hf3
  sl_exec
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact H4
  ipureintro
  exact View.read_writes_eq_canon _ _ _ (cover3 _)

/-! ## The proof data -/

/-- The x block at point `t` as its buffer holds it after the body: the rows inside the array, and the zero word on
    the rows past the array's end (a filler: the obligation states the buffer on the rows inside the array only). -/
def xfill (c : Dev nD) (t : Fin cfg0.N) : Vec F S15000x256 .f32 :=
  (cfg0.win 0).fill (cfg0.grid.coords t) (fun _ => Scalar.ofBits .f32 0#32) (iblk m c 0 t)

/-- The arrays as the region finds them; after the body x's buffer at its filled block, W's and b's at their blocks,
    the output's at the payload of those three; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => out3 (xfill m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = xfill m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (xfill m c t) (iblk m c 1 t) (iblk m c 2 t) := by dsimp only [dats]

/-- The rows of the filled block that lie inside the array are the block. -/
theorem cut_xfill (c : Dev nD) (t : Fin cfg0.N) :
    (cfg0.win 0).cut (cfg0.grid.coords t) (xfill m c t) = iblk m c 0 t :=
  (cfg0.win 0).cut_fill _ _ _

/-! ## What each buffer holds when the body starts -/

/-- x is fetched at every point: its buffer holds the block on the rows inside the array and `d` on the others. -/
theorem before0 (c : Dev nD) (t : Fin cfg0.N) (d) :
    (dats m 0 c).before 0 t d = (cfg0.win 0).fill (cfg0.grid.coords t) d (iblk m c 0 t) := by
  unfold Dat.before
  rw [if_pos (fetch0_0 t)]
  unfold Dat.fetched Dat.blockOf iblk
  rw [A_eq]

/-- W and b are fetched once and left in place: their buffers hold their blocks at every point. -/
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The output is written back at every point: its buffer is fresh at every point. -/
theorem before3 (c : Dev nD) (t : Fin cfg0.N) (d) : (dats m 0 c).before 3 t d = d := by
  refine (dats m 0 c).before_out_reset 3 rfl t ?_ d
  by_cases h0 : t.val = 0
  · exact .inl h0
  · exact .inr ⟨h0, flush0_3 _⟩

/-! ## The body obligation, the output's buffer forgotten -/

/-- The one window of which the frame says nothing: the output's. -/
abbrev fgt : Fin cfg0.W → Bool := fun w => match w with
  | ⟨0, _⟩ => false
  | ⟨1, _⟩ => false
  | ⟨2, _⟩ => false
  | ⟨3, _⟩ => true

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The body at any point: x's buffer holds its block filled out with some `d`, W's and b's their blocks; the
    triple leaves them so, and of the output's buffer only that it holds something is kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, cut_xfill]
  iintro ⟨HΦ, Ho, ⟨%d0, H0⟩, ⟨%d1, H1⟩, ⟨%d2, H2⟩, H3⟩
  iapply (sound_kernel c Set.univ _ _ _ _ _ _ _ _ _
    ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists _; iexact H3

theorem body_obligation (c : Dev nD) :
    BodyObligationLoose (dats (F := F) m 0 c) (defs₀ (F := F)) Variants.none () Set.univ fgt := fun t => by
  rw [bigSep_W0, bigSep_W0]
  exact sound_body m c t

/-! ## The run and the frame -/

set_option backward.isDefEq.respectTransparency.types false in
/-- Every weakly fair execution of @main terminates; the windows' input arrays end at their contents at the region's
    entry, and every other unscoped buffer likewise. -/
theorem run_frame : θ_run defs (onTc (τ := τ) (main (F := F))) (s₀ m ρ)
    (RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- The frame: x, W and b end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(RDat.FramePost.arr_in h c 0 rfl).trans ((A_eq m c 0).trans (V_main_arg0 m c)),
      (RDat.FramePost.arr_in h c 1 rfl).trans ((A_eq m c 1).trans (V_main_arg1 m c)),
      ((h c).2 main_arg2 (Pipeline.mem_restRefs_of main_arg2 (by decide) (by decide))).trans (V_main_arg2 m c)⟩)
    (run_frame m ρ)

end Cert.Kernel.Body

end
-- ==== Proof.KernelIdealBody.lean ====
/-
  The frame of the tiled affine map  y = x · W + b  (x : 50000 × 256, W : 256 × 256, b : 256), rows taken 15000 at a
  time over four grid points, at any float instance.

  The last block (rows 45000 to 59999) overhangs the array by 10000 rows: its fetch fills the staging buffer's first
  5000 rows with the array's rows 45000 to 49999 and leaves the other 10000 rows at words nothing names; the
  write-back moves only the first 5000 rows. The body loads the x block, W and b whole, stores  block · W + b  whole
  into the output's staging buffer, and reads nothing back.

  Here: the body's triple (each input buffer left as found, the output buffer at the one store's payload), the proof
  data (after the body an input buffer holds its block, x's filled out past the array's end, and the output buffer the
  payload of those), what each buffer holds when the body starts, and the frame: the run terminates, faults nowhere and
  leaves x, W and b as they were. For the frame nothing is said of what the output's buffer holds: at a bit-exact
  instance the matrix product is not a row-by-row function, so the rows computed from the unnamed tail cannot be
  separated from the others there, and the frame does not need them.
-/
import proofs.«144049_g41059887350157_cont_8to1_b_1536_13_alg».proof.Proof.Gen.KernelIdeal.Frame
import proofs.«144049_g41059887350157_cont_8to1_b_1536_13_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each the whole buffer -/

abbrev rX : Rect S15000x256 := Rect.unit (s := S15000x256) ![0, 0] S15000x256.size inb_S15000x256_S15000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- What the one store leaves in the output's buffer, from what the three input buffers hold. -/
def out3 (x0 : Vec F S15000x256 .f32) (x1 : Vec F S256x256 .f32) (x3 : Vec F S1x256 .f32) : Vec F S15000x256 .f32 :=
  View.canon [⟨rX, k0_pay1 (View.ld x0 rX) (View.ld x1 rW) (View.ld x3 rB)⟩]

/-- The store's rectangle is the whole buffer. -/
theorem cover3 (p0 : Vec F S15000x256 .f32) (y : S15000x256.Idx) :
    ∃ pc ∈ ([⟨rX, p0⟩] : List (View.Piece (Elt F) S15000x256 .f32)), y ∈ pc.1.set :=
  View.cover_of_tiled [⟨rX, p0⟩] S15000x256.size (by rfl) y

/-- Every access starts at the origin and spans the buffer, so the stored value is the payload of the buffers' whole
    contents:  x0 · x1 + x3  row by row. -/
theorem out3_eq (x0 : Vec F S15000x256 .f32) (x1 : Vec F S256x256 .f32) (x3 : Vec F S1x256 .f32) :
    out3 x0 x1 x3 = k0_pay1 x0 x1 x3 := by
  have hz : (![0, 0] : Fin 2 → Nat) = fun _ => 0 := funext fun a => by fin_cases a <;> rfl
  unfold out3
  rw [View.canon_unit_zero hz]
  simp only [View.ld_unit_zero (S := S15000x256) hz, View.ld_unit_zero (S := S256x256) hz, View.ld_unit_zero (S := S1x256) hz]

/-! ## The body's triple -/

set_option maxHeartbeats 1000000 in
/-- On whole staging buffers holding  x0, x1, x3  and anything in the output's: three loads, a load of the output's
    buffer that nothing reads, one store. The inputs' buffers are left as found and the output's holds the store. -/
theorem sound_kernel (c : Dev nD) (E : Set ℕ) (i : grid0.Coords)
    (arg1 : Memref sig .tc .vmem S15000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S15000x256 .f32) (harg4 : arg4.IsWhole)
    (x0 : Vec F S15000x256 .f32) (x1 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x3
        ∗ (∃ d, owns (c : Thread nD τ) arg4 fullShare d)
        ∗ (iprop(owns (c : Thread nD τ) arg1 fullShare x0 ∗ owns (c : Thread nD τ) arg2 fullShare x1 ∗ owns (c : Thread nD τ) arg3 fullShare x3
            ∗ owns (c : Thread nD τ) arg4 fullShare (out3 x0 x1 x3)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%f3, %hf3, H3⟩, ⟨%d4, %f4, -, H4⟩, Hk⟩
  subst hf0 hf1 hf3
  sl_exec
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact H4
  ipureintro
  exact View.read_writes_eq_canon _ _ _ (cover3 _)

/-! ## The proof data -/

/-- The x block at point `t` as its buffer holds it after the body: the rows inside the array, and the zero word on
    the rows past the array's end (a filler: the obligation states the buffer on the rows inside the array only). -/
def xfill (c : Dev nD) (t : Fin cfg0.N) : Vec F S15000x256 .f32 :=
  (cfg0.win 0).fill (cfg0.grid.coords t) (fun _ => Scalar.ofBits .f32 0#32) (iblk m c 0 t)

/-- The arrays as the region finds them; after the body x's buffer at its filled block, W's and b's at their blocks,
    the output's at the payload of those three; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => out3 (xfill m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = xfill m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (xfill m c t) (iblk m c 1 t) (iblk m c 2 t) := by dsimp only [dats]

/-- The rows of the filled block that lie inside the array are the block. -/
theorem cut_xfill (c : Dev nD) (t : Fin cfg0.N) :
    (cfg0.win 0).cut (cfg0.grid.coords t) (xfill m c t) = iblk m c 0 t :=
  (cfg0.win 0).cut_fill _ _ _

/-! ## What each buffer holds when the body starts -/

/-- x is fetched at every point: its buffer holds the block on the rows inside the array and `d` on the others. -/
theorem before0 (c : Dev nD) (t : Fin cfg0.N) (d) :
    (dats m 0 c).before 0 t d = (cfg0.win 0).fill (cfg0.grid.coords t) d (iblk m c 0 t) := by
  unfold Dat.before
  rw [if_pos (fetch0_0 t)]
  unfold Dat.fetched Dat.blockOf iblk
  rw [A_eq]

/-- W and b are fetched once and left in place: their buffers hold their blocks at every point. -/
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The output is written back at every point: its buffer is fresh at every point. -/
theorem before3 (c : Dev nD) (t : Fin cfg0.N) (d) : (dats m 0 c).before 3 t d = d := by
  refine (dats m 0 c).before_out_reset 3 rfl t ?_ d
  by_cases h0 : t.val = 0
  · exact .inl h0
  · exact .inr ⟨h0, flush0_3 _⟩

/-! ## The body obligation, the output's buffer forgotten -/

/-- The one window of which the frame says nothing: the output's. -/
abbrev fgt : Fin cfg0.W → Bool := fun w => match w with
  | ⟨0, _⟩ => false
  | ⟨1, _⟩ => false
  | ⟨2, _⟩ => false
  | ⟨3, _⟩ => true

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The body at any point: x's buffer holds its block filled out with some `d`, W's and b's their blocks; the
    triple leaves them so, and of the output's buffer only that it holds something is kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, cut_xfill]
  iintro ⟨HΦ, Ho, ⟨%d0, H0⟩, ⟨%d1, H1⟩, ⟨%d2, H2⟩, H3⟩
  iapply (sound_kernel c Set.univ _ _ _ _ _ _ _ _ _
    ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists _; iexact H3

theorem body_obligation (c : Dev nD) :
    BodyObligationLoose (dats (F := F) m 0 c) (defs₀ (F := F)) Variants.none () Set.univ fgt := fun t => by
  rw [bigSep_W0, bigSep_W0]
  exact sound_body m c t

/-! ## The run and the frame -/

set_option backward.isDefEq.respectTransparency.types false in
/-- Every weakly fair execution of @main terminates; the windows' input arrays end at their contents at the region's
    entry, and every other unscoped buffer likewise. -/
theorem run_frame : θ_run defs (onTc (τ := τ) (main (F := F))) (s₀ m ρ)
    (RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- The frame: x, W and b end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(RDat.FramePost.arr_in h c 0 rfl).trans ((A_eq m c 0).trans (V_main_arg0 m c)),
      (RDat.FramePost.arr_in h c 1 rfl).trans ((A_eq m c 1).trans (V_main_arg1 m c)),
      ((h c).2 main_arg2 (Pipeline.mem_restRefs_of main_arg2 (by decide) (by decide))).trans (V_main_arg2 m c)⟩)
    (run_frame m ρ)

end Cert.KernelIdeal.Body

end
-- ==== Proof.Spec.lean ====
/-
  The affine map both programs compute, as one function of the three argument arrays over the extended reals:

      y(r, j) = Σ_k x(r, k) · w(k, j) + b(j)        r < 50000,  j, k < 256.

  The sum is a finite sum in the extended reals' commutative additive monoid, so no order or grouping of it is
  chosen here, and no finiteness of the entries is needed to state it or to compare two ways of computing it.
-/
import Idealize.ShloMosaic.PureOps.Ideal
import Idealize.ShloMosaic.Lib.ValueIdx

noncomputable section

namespace Cert.AffineSpec

open Idealize.ShloMosaic Idealize.ShloMosaic.ValueIdx

/-- Entry (r, j): row r of x against column j of w, plus b at j. -/
def Gat (x : (⟨2, ![50000, 256]⟩ : Shape).Idx → EReal) (w : (⟨2, ![256, 256]⟩ : Shape).Idx → EReal)
    (b : (⟨1, ![256]⟩ : Shape).Idx → EReal) (r : Fin 50000) (j : Fin 256) : EReal :=
  (∑ k : Fin 256, x (ix2 r k) * w (ix2 k j)) + b (ix1 j)

/-- The whole result array. -/
def G (x : (⟨2, ![50000, 256]⟩ : Shape).Idx → EReal) (w : (⟨2, ![256, 256]⟩ : Shape).Idx → EReal)
    (b : (⟨1, ![256]⟩ : Shape).Idx → EReal) : (⟨2, ![50000, 256]⟩ : Shape).Idx → EReal :=
  fun i => Gat x w b ⟨(i 0).val, (i 0).isLt⟩ ⟨(i 1).val, (i 1).isLt⟩

theorem G_ix2 (x : (⟨2, ![50000, 256]⟩ : Shape).Idx → EReal) (w : (⟨2, ![256, 256]⟩ : Shape).Idx → EReal)
    (b : (⟨1, ![256]⟩ : Shape).Idx → EReal) (r : Fin 50000) (j : Fin 256) : G x w b (ix2 r j) = Gat x w b r j := rfl

end Cert.AffineSpec

end
-- ==== Proof.KernelIdealValue.lean ====
/-
  The value of the tiled affine map at the extended reals: the result array ends holding
      y(r, j) = Σ_k x(r, k) · w(k, j) + b(j)
  on all 50000 rows.

  At a grid point the body stores  block · W + b  of whatever its x buffer holds. Entry (r, j) of that product reads
  row r of the buffer and nothing else, so the rows inside the array do not depend on what fills the buffer past the
  array's end: at the last point the 10000 rows computed from the unnamed tail stay in the staging buffer, and the
  write-back moves the 5000 rows that are the array's rows 45000 to 49999. The four write-backs cover rows
  0‥14999, 15000‥29999, 30000‥44999 and 45000‥49999, each with its block of the one function above.
-/
import proofs.«144049_g41059887350157_cont_8to1_b_1536_13_alg».proof.Proof.KernelIdealBody
import proofs.«144049_g41059887350157_cont_8to1_b_1536_13_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

/-! ## The payload at an index -/

/-- The product's operand indices at output index (r, j) and contraction index k: (r, k) on the left, -/
theorem lhs_mm_0 (i : S15000x256.Idx) (q : dot_S15000x256_S256x256_S15000x256_1_0_0_1_n_n.contr.Idx) :
    (dot_S15000x256_S256x256_S15000x256_1_0_0_1_n_n.lhsIdx i q 0).val = (i 0).val := by
  unfold DotDims.lhsIdx
  rw [dif_neg (show ¬(0 : Fin S15000x256.rank) ∈ dot_S15000x256_S256x256_S15000x256_1_0_0_1_n_n.lhsBatch by decide), dif_pos (show (0 : Fin S15000x256.rank) ∈ dot_S15000x256_S256x256_S15000x256_1_0_0_1_n_n.lhsNonContracting by decide)]
  rfl
theorem lhs_mm_1 (i : S15000x256.Idx) (q : dot_S15000x256_S256x256_S15000x256_1_0_0_1_n_n.contr.Idx) :
    (dot_S15000x256_S256x256_S15000x256_1_0_0_1_n_n.lhsIdx i q 1).val = (q ⟨0, by decide⟩).val :=
  dot_S15000x256_S256x256_S15000x256_1_0_0_1_n_n.lhsIdx_val_of_single rfl i q
/-- and (k, j) on the right. -/
theorem rhs_mm_0 (i : S15000x256.Idx) (q : dot_S15000x256_S256x256_S15000x256_1_0_0_1_n_n.contr.Idx) :
    (dot_S15000x256_S256x256_S15000x256_1_0_0_1_n_n.rhsIdx i q 0).val = (q ⟨0, by decide⟩).val :=
  dot_S15000x256_S256x256_S15000x256_1_0_0_1_n_n.rhsIdx_val_of_single rfl i q
theorem rhs_mm_1 (i : S15000x256.Idx) (q : dot_S15000x256_S256x256_S15000x256_1_0_0_1_n_n.contr.Idx) :
    (dot_S15000x256_S256x256_S15000x256_1_0_0_1_n_n.rhsIdx i q 1).val = (i 1).val := by
  unfold DotDims.rhsIdx
  rw [dif_neg (show ¬(1 : Fin S256x256.rank) ∈ dot_S15000x256_S256x256_S15000x256_1_0_0_1_n_n.rhsBatch by decide), dif_pos (show (1 : Fin S256x256.rank) ∈ dot_S15000x256_S256x256_S15000x256_1_0_0_1_n_n.rhsNonContracting by decide)]
  rfl

/-- The matrix product into the zero accumulator, at (r, j): the sum over k of x0(r, k) · x1(k, j). -/
theorem mm_apply (x0 : FVec Ideal S15000x256 .f32) (x1 : FVec Ideal S256x256 .f32) (r : Fin 15000) (j : Fin 256) :
    matmul dot_S15000x256_S256x256_S15000x256_1_0_0_1_n_n none x0 x1 (constant S15000x256 .f32 0x00000000#32) (ix2 r j)
      = ∑ k : Fin 256, x0 (ix2 r k) * x1 (ix2 k j) := by
  refine (Ideal.matmul_constant_zero_apply dot_S15000x256_S256x256_S15000x256_1_0_0_1_n_n none x0 x1 (ix2 r j)).trans ?_
  rw [← Equiv.sum_comp (ValueIdx.contrEquiv1 dot_S15000x256_S256x256_S15000x256_1_0_0_1_n_n 256 rfl rfl).symm]
  refine Finset.sum_congr rfl fun k _ => ?_
  have hk := ValueIdx.contrEquiv1_symm_val dot_S15000x256_S256x256_S15000x256_1_0_0_1_n_n 256 rfl rfl k
  have el : dot_S15000x256_S256x256_S15000x256_1_0_0_1_n_n.lhsIdx (ix2 r j) ((ValueIdx.contrEquiv1 dot_S15000x256_S256x256_S15000x256_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S15000x256_S256x256_S15000x256_1_0_0_1_n_n.rhsIdx (ix2 r j) ((ValueIdx.contrEquiv1 dot_S15000x256_S256x256_S15000x256_1_0_0_1_n_n 256 rfl rfl).symm k) = ix2 k j := funext fun a => Fin.ext (by
    match a with
    | ⟨0, _⟩ => exact (rhs_mm_0 _ _).trans hk
    | ⟨1, _⟩ => exact rhs_mm_1 _ _)
  rw [el, er]

/-- The bias row broadcast over the block's rows, at (r, j): the row's entry j. -/
theorem bias_apply (x3 : FVec Ideal S1x256 .f32) (r : Fin 15000) (j : Fin 256) :
    broadcastTo S15000x256 (shapeCast S1x256 x3 shapeCasts_S1x256_S1x256) broadcasts_S1x256_S15000x256 (ix2 r j)
      = x3 (ix2 (0 : Fin 1) j) := by
  rw [shapeCast_self]
  exact broadcastTo_1b_ab_apply x3 broadcasts_S1x256_S15000x256 r j

/-- The stored value at (r, j):  Σ_k x0(r, k) · x1(k, j) + x3(0, j). -/
theorem pay_apply (x0 : FVec Ideal S15000x256 .f32) (x1 : FVec Ideal S256x256 .f32) (x3 : FVec Ideal S1x256 .f32)
    (r : Fin 15000) (j : Fin 256) :
    k0_pay1 (F := Ideal) x0 x1 x3 (ix2 r j) = (∑ k : Fin 256, x0 (ix2 r k) * x1 (ix2 k j)) + x3 (ix2 (0 : Fin 1) j) := by
  unfold k0_pay1
  show matmul dot_S15000x256_S256x256_S15000x256_1_0_0_1_n_n none x0 x1 (constant S15000x256 .f32 0x00000000#32) (ix2 r j)
      + broadcastTo S15000x256 (shapeCast S1x256 x3 shapeCasts_S1x256_S1x256) broadcasts_S1x256_S15000x256 (ix2 r j) = _
  exact congrArg₂ (· + ·) (mm_apply x0 x1 r j) (bias_apply x3 r j)

/-- Row r of the stored value reads row r of the x buffer only. -/
theorem out3_row (x0 x0' : FVec Ideal S15000x256 .f32) (x1 : FVec Ideal S256x256 .f32) (x3 : FVec Ideal S1x256 .f32)
    (r : Fin 15000) (hrow : ∀ k : Fin 256, x0 (ix2 r k) = x0' (ix2 r k)) (j : Fin 256) :
    out3 (F := Ideal) x0 x1 x3 (ix2 r j) = out3 (F := Ideal) x0' x1 x3 (ix2 r j) := by
  rw [out3_eq, out3_eq, pay_apply, pay_apply]
  exact congrArg (· + x3 (ix2 (0 : Fin 1) j)) (Finset.sum_congr rfl fun k _ => by rw [hrow k])

variable (m : (ℓ : Loc nD τ sig) → Buf (Elt Ideal) ℓ) (ρ : Dev nD → PrngReg)

/-! ## The index maps and the cuts, over the four grid points -/

/-- x's and the result's block index is (t, 0), W's and b's (0, 0); the transfers of x and of the result move
    15000 rows at points 0, 1, 2 and 5000 at point 3, all 256 columns. -/
theorem grid_facts : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_0.xsize (grid0.coords t) (0 : Fin 2) = (if t.val = 3 then 5000 else 15000)
    ∧ win0_0.xsize (grid0.coords t) (1 : Fin 2) = 256
    ∧ win0_3.xsize (grid0.coords t) (0 : Fin 2) = (if t.val = 3 then 5000 else 15000)
    ∧ win0_3.xsize (grid0.coords t) (1 : Fin 2) = 256 :=
  (by decide +kernel : ∀ t : Fin grid0.N, _)

theorem t_lt (t : Fin cfg0.N) : t.val < 4 := by
  have h : t.val < grid0.N := t.isLt
  have := N_0
  omega

/-! ## The x buffer on the rows inside the array -/

/-- On a row the fetch moves, the filled block does not depend on the filler. -/
theorem fill0_row (t : Fin cfg0.N) (d d' : S15000x256.Idx → EReal)
    (g : ((cfg0.win 0).xblock (cfg0.grid.coords t)).Idx → EReal) (r : Fin 15000)
    (hr : r.val < win0_0.xsize (grid0.coords t) (0 : Fin 2)) (k : Fin 256) :
    (cfg0.win 0).fill (cfg0.grid.coords t) d g (ix2 r k) = (cfg0.win 0).fill (cfg0.grid.coords t) d' g (ix2 r k) := by
  have hm : (cfg0.win 0).moved (cfg0.grid.coords t) (ix2 r k) = true :=
    ((cfg0.win 0).moved_iff _ _).mpr fun a => by
      match a with
      | ⟨0, _⟩ => exact hr
      | ⟨1, _⟩ =>
        show k.val < win0_0.xsize (grid0.coords t) (1 : Fin 2)
        rw [(grid_facts t).2.2.2.2.2.2.2.2.2.1]; exact k.isLt
  unfold Window.fill
  rw [dif_pos hm, dif_pos hm]

/-- The rows the write-back moves are the same whatever filled the x buffer past the array's end. -/
theorem cut_out3 (c : Dev nD) (t : Fin cfg0.N) (d0 : S15000x256.Idx → EReal) :
    (cfg0.win 3).cut (cfg0.grid.coords t)
        (out3 (F := Ideal) ((cfg0.win 0).fill (cfg0.grid.coords t) d0 (iblk m c 0 t)) (iblk m c 1 t) (iblk m c 2 t))
      = (cfg0.win 3).cut (cfg0.grid.coords t) (out3 (F := Ideal) (xfill m c t) (iblk m c 1 t) (iblk m c 2 t)) := by
  obtain ⟨-, -, -, -, -, -, -, -, hx0, hx1, hy0, hy1⟩ := grid_facts t
  have ht := t_lt t
  funext y
  have h0 : (y (0 : Fin 2)).val < win0_3.xsize (grid0.coords t) (0 : Fin 2) := (y (0 : Fin 2)).isLt
  have h1 : (y (1 : Fin 2)).val < win0_3.xsize (grid0.coords t) (1 : Fin 2) := (y (1 : Fin 2)).isLt
  have h0' : (y (0 : Fin 2)).val < 15000 := by rw [hy0] at h0; split at h0 <;> omega
  have h1' : (y (1 : Fin 2)).val < 256 := by rw [hy1] at h1; exact h1
  have e : (cfg0.win 3).xinj (cfg0.grid.coords t) y
      = ix2 (⟨(y (0 : Fin 2)).val, h0'⟩ : Fin 15000) (⟨(y (1 : Fin 2)).val, h1'⟩ : Fin 256) :=
    funext fun a => by match a with | ⟨0, _⟩ => rfl | ⟨1, _⟩ => rfl
  show out3 (F := Ideal) _ _ _ ((cfg0.win 3).xinj (cfg0.grid.coords t) y) = out3 (F := Ideal) _ _ _ ((cfg0.win 3).xinj (cfg0.grid.coords t) y)
  rw [e]
  refine out3_row _ _ _ _ _ (fun k => ?_) _
  unfold xfill
  exact fill0_row t _ _ _ _ (by rw [hx0, ← hy0]; exact h0) k

/-! ## The body obligation, every buffer named -/

def bodyPreX (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPostX (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

/-- The body at any point: the output's buffer ends at the stored value of the x buffer as found, which on the rows
    the write-back moves is the stored value of the filled block (`cut_out3`). -/
theorem sound_bodyX (c : Dev nD) (t : Fin cfg0.N) :
    bodyPreX m c t ⊢ wp frame (wpE (defs₀ (F := Ideal)) Variants.none c none) Set.univ (bodyAt0 t) (fun _ => bodyPostX m c t) := by
  unfold bodyPreX bodyPostX bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, cut_xfill]
  have h3 : ∀ d0 : S15000x256.Idx → EReal,
      out3 (F := Ideal) ((cfg0.win 0).fill (cfg0.grid.coords t) d0 (iblk m c 0 t)) (iblk m c 1 t) (iblk m c 2 t)
        = (cfg0.win 3).fill (cfg0.grid.coords t)
            (out3 (F := Ideal) ((cfg0.win 0).fill (cfg0.grid.coords t) d0 (iblk m c 0 t)) (iblk m c 1 t) (iblk m c 2 t))
            ((cfg0.win 3).cut (cfg0.grid.coords t) (out3 (F := Ideal) (xfill m c t) (iblk m c 1 t) (iblk m c 2 t))) := fun d0 => by
    rw [← cut_out3 m c t d0, Window.fill_cut]
  iintro ⟨HΦ, Ho, ⟨%d0, H0⟩, ⟨%d1, H1⟩, ⟨%d2, H2⟩, ⟨%d3, H3⟩⟩
  iapply (sound_kernel c Set.univ _ _ _ _ _ _ _ _ _
    ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists (out3 (F := Ideal) ((cfg0.win 0).fill (cfg0.grid.coords t) d0 (iblk m c 0 t)) (iblk m c 1 t) (iblk m c 2 t))
  rw [← h3 d0]
  iexact H3

theorem body_exact (c : Dev nD) :
    BodyObligationLoose (dats (F := Ideal) m 0 c) (defs₀ (F := Ideal)) Variants.none () Set.univ := fun t => by
  rw [bigSep_W0, bigSep_W0]
  exact sound_bodyX m c t

/-! ## The run -/

set_option backward.isDefEq.respectTransparency.types false in
/-- Every weakly fair execution of @main terminates, each windowed array at what its write-backs leave and every
    other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_exact m) (hshare := fun c => (dats m 0 c).share_full fun _ => rfl)
    (howed := fun _ _ => rfl) (V := V m) (hmain := hmain m Variants.none) (hA := A_eq m) (hΦ := fun _ _ => rfl)

/-! ## What the argument arrays are to the region -/

/-- The specification's result array, of the arrays as launched. -/
abbrev Y (c : Dev nD) : S50000x256.Idx → EReal :=
  Cert.AffineSpec.G (m ((c : Thread nD τ).loc main_arg0)) (m ((c : Thread nD τ).loc main_arg1)) (m ((c : Thread nD τ).loc main_arg2))

/-- The bias as the region finds it is b laid out as one row. -/
theorem V_bias (c : Dev nD) (j : Fin 256) :
    V m c main_v0 (ix2 (0 : Fin 1) j) = m ((c : Thread nD τ).loc main_arg2) (ix1 j) := by
  have e : (V m c main_v0 : S1x256.Idx → EReal) = shapeCast S1x256 (m ((c : Thread nD τ).loc main_arg2)) shapeCasts_S256_S1x256 := by
    dsimp only [V, hostOps0]; after_results; rfl
  rw [e]
  exact shapeCast_a_1a_apply _ _ _ _

/-- Row r of the filled x block at point t, a row the fetch moves, is row 15000·t + r of x. -/
theorem xfill_apply (c : Dev nD) (t : Fin cfg0.N) (r : Fin 15000) (hr : r.val < win0_0.xsize (grid0.coords t) (0 : Fin 2))
    (k : Fin 256) (hR : t.val * 15000 + r.val < 50000) :
    xfill m c t (ix2 r k) = m ((c : Thread nD τ).loc main_arg0) (ix2 (⟨t.val * 15000 + r.val, hR⟩ : Fin 50000) k) := by
  obtain ⟨i00, i01, -, -, -, -, -, -, -, hx1, -, -⟩ := grid_facts t
  have hm : (cfg0.win 0).moved (cfg0.grid.coords t) (ix2 r k) = true :=
    ((cfg0.win 0).moved_iff _ _).mpr fun a => by
      match a with
      | ⟨0, _⟩ => exact hr
      | ⟨1, _⟩ =>
        show k.val < win0_0.xsize (grid0.coords t) (1 : Fin 2)
        rw [hx1]; exact k.isLt
  unfold xfill Window.fill
  rw [dif_pos hm]
  show V m c main_arg0 (((cfg0.win 0).blk t).view.emb _) = _
  rw [V_main_arg0]
  refine congrArg _ (funext fun a => Fin.ext ?_)
  match a with
  | ⟨0, _⟩ =>
    show win0_0.index t (0 : Fin 2) * 15000 + 1 * r.val = t.val * 15000 + r.val
    rw [i00]; omega
  | ⟨1, _⟩ =>
    show win0_0.index t (1 : Fin 2) * 256 + 1 * k.val = k.val
    rw [i01]; omega

/-- W's block at every point is W. -/
theorem iblk1_apply (c : Dev nD) (t : Fin cfg0.N) (k j : Fin 256) :
    iblk m c 1 t (ix2 k j) = m ((c : Thread nD τ).loc main_arg1) (ix2 k j) := by
  obtain ⟨-, -, -, -, i10, i11, -, -, -, -, -, -⟩ := grid_facts t
  show V m c main_arg1 (((cfg0.win 1).blk t).view.emb (ix2 k j)) = _
  rw [V_main_arg1]
  refine congrArg _ (funext fun a => Fin.ext ?_)
  match a with
  | ⟨0, _⟩ =>
    show win0_1.index t (0 : Fin 2) * 256 + 1 * k.val = k.val
    rw [i10]; omega
  | ⟨1, _⟩ =>
    show win0_1.index t (1 : Fin 2) * 256 + 1 * j.val = j.val
    rw [i11]; omega

/-- b's block at every point is b's one row. -/
theorem iblk2_apply (c : Dev nD) (t : Fin cfg0.N) (j : Fin 256) :
    iblk m c 2 t (ix2 (0 : Fin 1) j) = m ((c : Thread nD τ).loc main_arg2) (ix1 j) := by
  obtain ⟨-, -, -, -, -, -, i20, i21, -, -, -, -⟩ := grid_facts t
  show V m c main_v0 (((cfg0.win 2).blk t).view.emb (ix2 (0 : Fin 1) j)) = _
  have e : ((cfg0.win 2).blk t).view.emb (ix2 (0 : Fin 1) j) = ix2 (0 : Fin 1) j := by
    funext a; apply Fin.ext
    match a with
    | ⟨0, _⟩ =>
      show win0_2.index t (0 : Fin 2) * 1 + 1 * 0 = 0
      rw [i20]
    | ⟨1, _⟩ =>
      show win0_2.index t (1 : Fin 2) * 256 + 1 * j.val = j.val
      rw [i21]; omega
  rw [e]
  exact V_bias m c j

/-! ## What each point writes back, the cover, the final array -/

/-- Point t writes back its block of the specification's array: rows 15000·t onward, as many as the array has. -/
theorem flushed3_eq (c : Dev nD) (t : Fin cfg0.N) :
    (dats m 0 c).flushed 3 t = ((cfg0.win 3).blk t).view.read (Elt Ideal) (Y m c) := by
  show (cfg0.win 3).cut (grid0.coords t) ((dats m 0 c).after 3 t) = _
  rw [after3]
  obtain ⟨-, -, i30, i31, -, -, -, -, hx0, -, hy0, hy1⟩ := grid_facts t
  have ht := t_lt t
  funext y
  have h0 : (y (0 : Fin 2)).val < win0_3.xsize (grid0.coords t) (0 : Fin 2) := (y (0 : Fin 2)).isLt
  have h1 : (y (1 : Fin 2)).val < win0_3.xsize (grid0.coords t) (1 : Fin 2) := (y (1 : Fin 2)).isLt
  have h0' : (y (0 : Fin 2)).val < 15000 := by rw [hy0] at h0; split at h0 <;> omega
  have h1' : (y (1 : Fin 2)).val < 256 := by rw [hy1] at h1; exact h1
  have hR : t.val * 15000 + (y (0 : Fin 2)).val < 50000 := by rw [hy0] at h0; split at h0 <;> omega
  have e : (cfg0.win 3).xinj (cfg0.grid.coords t) y
      = ix2 (⟨(y (0 : Fin 2)).val, h0'⟩ : Fin 15000) (⟨(y (1 : Fin 2)).val, h1'⟩ : Fin 256) :=
    funext fun a => by match a with | ⟨0, _⟩ => rfl | ⟨1, _⟩ => rfl
  have eo : ((cfg0.win 3).blk t).view.emb y
      = ix2 (⟨t.val * 15000 + (y (0 : Fin 2)).val, hR⟩ : Fin 50000) (⟨(y (1 : Fin 2)).val, h1'⟩ : Fin 256) := by
    funext a; apply Fin.ext
    match a with
    | ⟨0, _⟩ =>
      show win0_3.index t (0 : Fin 2) * 15000 + 1 * (y (0 : Fin 2)).val = t.val * 15000 + (y (0 : Fin 2)).val
      rw [i30]; omega
    | ⟨1, _⟩ =>
      show win0_3.index t (1 : Fin 2) * 256 + 1 * (y (1 : Fin 2)).val = (y (1 : Fin 2)).val
      rw [i31]; omega
  show out3 (F := Ideal) (xfill m c t) (iblk m c 1 t) (iblk m c 2 t) ((cfg0.win 3).xinj (cfg0.grid.coords t) y)
      = Y m c (((cfg0.win 3).blk t).view.emb y)
  rw [e, eo, out3_eq, pay_apply]
  show _ = Cert.AffineSpec.Gat _ _ _ _ _
  unfold Cert.AffineSpec.Gat
  refine congrArg₂ (· + ·) (Finset.sum_congr rfl fun k _ => congrArg₂ (· * ·) ?_ ?_) ?_
  · exact xfill_apply m c t _ (by rw [hx0, ← hy0]; exact h0) k hR
  · exact iblk1_apply m c t k _
  · exact iblk2_apply m c t _

/-- An index of the result array is in point t's block iff each coordinate is in the block's range cut at the
    array's end. -/
theorem mem_blk3 (t : Fin cfg0.N) (i : S50000x256.Idx) :
    i ∈ ((cfg0.win 3).blk t).view.set ↔ ∀ a : Fin 2, win0_3.index t a * S15000x256.size a ≤ (i a).val
      ∧ (i a).val < win0_3.index t a * S15000x256.size a + win0_3.xsize (grid0.coords t) a := by
  show i ∈ ((View.whole main_v1).slice (win0_3.rect t)).set ↔ _
  rw [View.set_slice_whole, Rect.mem_set_unit]
  exact Iff.rfl

/-- Row r of the array is written back at point r / 15000. -/
theorem cover3 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : (i 0).val / 15000 < grid0.N := by rw [N_0]; omega
  obtain ⟨-, -, i30, i31, -, -, -, -, -, -, hy0, hy1⟩ := grid_facts ⟨(i 0).val / 15000, hN⟩
  refine ⟨⟨(i 0).val / 15000, hN⟩, flush0_3 _, ?_⟩
  rw [mem_blk3]
  intro a
  match a with
  | ⟨0, _⟩ =>
    show win0_3.index ⟨(i 0).val / 15000, hN⟩ (0 : Fin 2) * 15000 ≤ (i 0).val
      ∧ (i 0).val < win0_3.index ⟨(i 0).val / 15000, hN⟩ (0 : Fin 2) * 15000 + win0_3.xsize (grid0.coords ⟨(i 0).val / 15000, hN⟩) (0 : Fin 2)
    rw [i30, hy0]
    show (i 0).val / 15000 * 15000 ≤ (i 0).val
      ∧ (i 0).val < (i 0).val / 15000 * 15000 + (if (i 0).val / 15000 = 3 then 5000 else 15000)
    split <;> omega
  | ⟨1, _⟩ =>
    show win0_3.index ⟨(i 0).val / 15000, hN⟩ (1 : Fin 2) * 256 ≤ (i 1).val
      ∧ (i 1).val < win0_3.index ⟨(i 0).val / 15000, hN⟩ (1 : Fin 2) * 256 + win0_3.xsize (grid0.coords ⟨(i 0).val / 15000, hN⟩) (1 : Fin 2)
    rw [i31, hy1]; omega

/-- The result array after the run is the specification's. -/
theorem final3 (c : Dev nD) : (dats m 0 c).arrAt 3 cfg0.N = Y m c :=
  (dats m 0 c).arrAt_eq_of_cover 3 (Y m c) (fun t _ => flushed3_eq m c t) cover3

/-! ## The run, read -/

/-- Every weakly fair execution of @main terminates with the result at the specification's array of the arguments
    and the arguments unchanged. -/
theorem run : θ_run defs (onTc (τ := τ) (main (F := Ideal))) ⟨m, fun _ => 0, ρ⟩ fun r => ∀ c : Dev nD,
      r.2.mem ((c.tc : Thread nD τ).loc main_v1) = Y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Val

end
-- ==== Proof.RefValue.lean ====
/-
  The reference at the extended reals is the affine map: its result is  (x · w) + broadcast b, the product a
  `dot_general` contracting x's columns with w's rows and the bias broadcast first to one row, then over the rows.
  Read at (r, j):  Σ_k x(r, k) · w(k, j) + b(j).
-/
import proofs.«144049_g41059887350157_cont_8to1_b_1536_13_alg».proof.Proof.Gen.ReferenceIdeal.Run
import proofs.«144049_g41059887350157_cont_8to1_b_1536_13_alg».proof.Proof.Gen.ReferenceIdeal.Read
import proofs.«144049_g41059887350157_cont_8to1_b_1536_13_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The reference's last stage is the specification's function of the three arguments, index by index: the product's
    operand indices at (r, j) and k are (r, k) and (k, j), and both broadcasts read the bias at j. -/
theorem ref_eq (x0 : (⟨S50000x256, .f32⟩ : BufTy).Contents (Elt Ideal)) (x1 : (⟨S256x256, .f32⟩ : BufTy).Contents (Elt Ideal))
    (x2 : (⟨S256, .f32⟩ : BufTy).Contents (Elt Ideal)) :
    val_main_v3 (F := Ideal) x0 x1 x2 = Cert.AffineSpec.G x0 x1 x2 := by
  funext i
  obtain ⟨r, j, rfl⟩ : ∃ (r : Fin 50000) (j : Fin 256), i = ix2 r j := ⟨i 0, i 1, eq_ix2 i⟩
  rw [val_main_v3_apply, val_main_v0_apply, val_main_v2_apply, val_main_v1_apply, Cert.AffineSpec.G_ix2]
  have el : ∀ k : Fin 256, lidx_main_v0 (ix2 r j) k = ix2 r k := fun k =>
    funext fun a => Fin.ext (by match a with | ⟨0, _⟩ => rfl | ⟨1, _⟩ => rfl)
  have er : ∀ k : Fin 256, ridx_main_v0 (ix2 r j) k = ix2 k j := fun k =>
    funext fun a => Fin.ext (by match a with | ⟨0, _⟩ => rfl | ⟨1, _⟩ => rfl)
  have eb : idx_main_v1 (idx_main_v2 (ix2 r j)) = ix1 j :=
    funext fun a => Fin.ext (by match a with | ⟨0, _⟩ => rfl)
  unfold Cert.AffineSpec.Gat
  simp only [el, er, eb]
  rfl

end Cert.ReferenceIdeal.RefValue

end
-- ==== Proof.lean ====
/-
  The certificate of the tiled affine map  y = x · W + b  (x : 50000 × 256, W : 256 × 256, b : 256) against its
  plain reference  dot(x, W) + b.

  The kernel takes the rows 15000 at a time over four grid points; the last block overhangs the array by 10000 rows,
  which the fetch leaves at unnamed words and the write-back does not move. Entry (r, j) of a block's product reads row
  r of the block only, so at the extended reals every row inside the array is  Σ_k x(r, k) · W(k, j) + b(j), which is
  what the reference's product and broadcasts compute index by index: one finite sum in a commutative monoid, with no
  law that would need the entries to be finite.

  The three frames: the two kernel programs' by running the body at every point with nothing said of the output's
  staging buffer (at the bit-exact instance the product is not a row-by-row function, and the frame does not need its
  value); the reference's is its run with the result dropped. No rewrite was applied in idealizing the kernel, so
  `preserves` is `True`.
-/
import proofs.«144049_g41059887350157_cont_8to1_b_1536_13_alg».proof.Defs
import proofs.«144049_g41059887350157_cont_8to1_b_1536_13_alg».proof.Proof.Gen.Kernel
import proofs.«144049_g41059887350157_cont_8to1_b_1536_13_alg».proof.Proof.Gen.KernelIdeal
import proofs.«144049_g41059887350157_cont_8to1_b_1536_13_alg».proof.Proof.Gen.ReferenceIdeal
import proofs.«144049_g41059887350157_cont_8to1_b_1536_13_alg».proof.Proof.Gen.ReferenceIdeal.Run
import proofs.«144049_g41059887350157_cont_8to1_b_1536_13_alg».proof.Proof.Gen.ReferenceIdeal.Read
import proofs.«144049_g41059887350157_cont_8to1_b_1536_13_alg».proof.Proof.Gen.Pre_finite_inputs
import proofs.«144049_g41059887350157_cont_8to1_b_1536_13_alg».proof.Proof.KernelBody
import proofs.«144049_g41059887350157_cont_8to1_b_1536_13_alg».proof.Proof.KernelIdealBody
import proofs.«144049_g41059887350157_cont_8to1_b_1536_13_alg».proof.Proof.KernelIdealValue
import proofs.«144049_g41059887350157_cont_8to1_b_1536_13_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves x, W and b as they were. -/
theorem frame_k : Cert.frame_Kernel := fun m ρ _ => Cert.Kernel.Body.frame (F := Bits) m ρ

/-- The idealized kernel likewise. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on x, W and b both programs end with the affine map's array: the kernel by its four
    write-backs, the reference by its product and broadcasts read at an index. -/
theorem algebraic : Cert.algebraic_KernelIdeal_ReferenceIdeal := by
  intro m ρ m' ρ' _ hagree
  refine ⟨fun c => Cert.KernelIdeal.Val.Y m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
